-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S32768x1024 : Shape := ⟨2, ![32768, 1024]⟩
abbrev S1024 : Shape := ⟨1, ![1024]⟩
abbrev S1x1024 : Shape := ⟨2, ![1, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .f32⟩
  | .local _ .vmem, ⟨4, _⟩ => ⟨S2048x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S32768x1024.size a
  hwx0_2 : ∀ i : grid0.Coords, EltTy.bits .f32 = 32 ∨ (Rect.block (s := S32768x1024) S2048x1024.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024 : Shape := ⟨1, ![1024]⟩
abbrev S1x1024 : Shape := ⟨2, ![1, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .hbm, ⟨4, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)

variable [Facts₀]

class Facts : Prop extends Facts₀ where

variable [Facts]
-- ==== Proof.ColScale.lean ====
/-
  The specification. The layer multiplies a matrix by a diagonal matrix: `x · diag(w)`. Entry (r, k) of that product is
  `∑ j, x[r, j] · diag(w)[j, k]`, and the only summand that can differ from zero is `j = k`, so the product is the
  matrix `x` with its column `k` scaled by `w[k]`:

      scaled x w [r, k] = x[r, k] · w[k]      (r < 32768, k < 1024).

  Both programs compute this function entry by entry, one multiplication per entry with the same two factors in the
  same order, so no law of arithmetic is needed to join them, and nothing here depends on the entries being finite.
-/
import Idealize.ShloMosaic.PureOps.Ideal
import Idealize.ShloMosaic.Lib.ValueIdx

noncomputable section

namespace Cert.ColScale

open Idealize.ShloMosaic Idealize.ShloMosaic.ValueIdx

variable {F : FTy → Type} [FloatOps F]

/-- The index into the weight vector that a matrix index selects: its column. -/
abbrev col (i : (⟨2, ![32768, 1024]⟩ : Shape).Idx) : (⟨1, ![1024]⟩ : Shape).Idx := ix1 (n := 1024) (i 1)

/-- The column-scaled matrix: entry (r, k) is `x[r, k] · w[k]`. -/
def scaled (x : (⟨2, ![32768, 1024]⟩ : Shape).Idx → Elt F .f32) (w : (⟨1, ![1024]⟩ : Shape).Idx → Elt F .f32) :
    (⟨2, ![32768, 1024]⟩ : Shape).Idx → Elt F .f32 :=
  fun i => FloatOps.mulf (x i) (w (col i))

theorem scaled_apply (x : (⟨2, ![32768, 1024]⟩ : Shape).Idx → Elt F .f32) (w : (⟨1, ![1024]⟩ : Shape).Idx → Elt F .f32)
    (i : (⟨2, ![32768, 1024]⟩ : Shape).Idx) : scaled x w i = FloatOps.mulf (x i) (w (col i)) := rfl

end Cert.ColScale

end
-- ==== Proof.KernelScaled.lean ====
/-
  The kernel is the specification. The rows of `x` are cut into 16 blocks of 2048 rows, each block the full width
  of 1024 columns; the weight vector, laid out as one row `w1[0, k] = w[k]`, is the same block at every grid point.
  At point `t` the body multiplies the block of `x` entry by entry with that row repeated down the block's 2048
  rows, so entry (p, k) of what it writes back is `x[2048·t + p, k] · w[k]`: block `t` of the column-scaled
  matrix. Row `r` lies in the block of point `r / 2048`, so the 16 blocks cover every row, and the output array
  ends as the column-scaled matrix.
-/
import proofs.«400643_j7765300871196_3_alg».proof.Proof.Gen.KernelIdeal.Value
import proofs.«400643_j7765300871196_3_alg».proof.Proof.ColScale
import Idealize.ShloMosaic.Lib.Pipeline.Value
import Idealize.ShloMosaic.Lib.StableHlo.Run

set_option maxRecDepth 16384

noncomputable section

namespace Cert.KernelIdeal.BlockValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The body's loads and its store start at row 0, column 0 of their blocks. -/
theorem zero_off : (![0, 0] : Fin 2 → Nat) = fun _ => 0 := funext fun a => by fin_cases a <;> rfl

/-- WHAT THE BODY LEAVES in the output block, entry by entry: the entry of the block of `x` at the same place times
    the entry of the weight row in the same column. -/
theorem block_apply (x0 : Vec F S2048x1024 .f32) (x1 : Vec F S1x1024 .f32) (y : S2048x1024.Idx) :
    out0_2 x0 x1 y = FloatOps.mulf (x0 y) (x1 (ix2_1 y)) := by
  unfold out0_2
  rw [canon2_eq]
  simp only [View.ld_unit_zero (S := S2048x1024) zero_off, View.ld_unit_zero (S := S1x1024) zero_off]
  show FloatOps.mulf (x0 (ix2_0 y)) (x1 (ix2_1 y)) = _
  have e : ix2_0 y = y := funext fun a => Fin.ext (by match a with | ⟨0, _⟩ => rfl | ⟨1, _⟩ => rfl)
  rw [e]

/-- A vector of 1024 entries laid out as ONE row of 1024: entry (0, k) of the row is entry k of the vector (both sit
    at position k in row-major order, the row index being 0). -/
theorem row_of_vec {α : Type} (w : (⟨1, ![1024]⟩ : Shape).Idx → α)
    (h : (⟨1, ![1024]⟩ : Shape).ShapeCasts ⟨2, ![1, 1024]⟩) (k : (⟨2, ![1, 1024]⟩ : Shape).Idx) :
    shapeCast ⟨2, ![1, 1024]⟩ w h k = w (ix1 (n := 1024) (k 1)) := by
  refine shapeCast_apply _ _ k _ ?_
  rw [Shape.rowMajor_val_one, Shape.rowMajor_val_two]
  have h0 : (k 0).val < 1 := (k 0).isLt
  show (k 1).val = (k 0).val * 1024 + (k 1).val
  omega

/-- THE WEIGHT ROW as the region finds it: the weight vector laid out as one row, `w1[0, k] = w[k]`. -/
theorem weight_row (c : Dev nD) (k : S1x1024.Idx) :
    (V m c main_v0 : S1x1024.Idx → Elt F .f32) k = (m ((c : Thread nD τ).loc main_arg1) : S1024.Idx → Elt F .f32) (ix1 (n := 1024) (k 1)) := by
  have e : (V m c main_v0 : S1x1024.Idx → Elt F .f32)
      = shapeCast S1x1024 (m ((c : Thread nD τ).loc main_arg1) : S1024.Idx → Elt F .f32) shapeCasts_S1024_S1x1024 := by
    dsimp only [Gen.V, Gen.hostOps0]; after_results; rfl
  rw [e]
  exact row_of_vec _ _ k

/-- The printed index maps over the 16 grid points: the blocks of `x` and of the output are both block `t` of the
    rows and the one block of columns; the weight row is always its one block. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of the column-scaled matrix. -/
theorem flushed_scaled (c : Dev nD) (t : Fin cfg0.N) :
    (dats m 0 c).flushed 2 t = ((cfg0.win 2).blk t).view.read (Elt F)
      (Cert.ColScale.scaled (V m c main_arg0) (m ((c : Thread nD τ).loc main_arg1))) := by
  rw [Value.flushed2]
  obtain ⟨e0, e1, e2, e3, e4, e5⟩ := idx_facts t
  funext j
  show out0_2 (iblk m c 0 t) (iblk m c 1 t) j = _
  refine (block_apply _ _ j).trans ?_
  show FloatOps.mulf (V m c main_arg0 (((cfg0.win 0).blk t).view.emb j)) (V m c main_v0 (((cfg0.win 1).blk t).view.emb (ix2_1 j)))
    = FloatOps.mulf (V m c main_arg0 (((cfg0.win 2).blk t).view.emb j))
        ((m ((c : Thread nD τ).loc main_arg1) : S1024.Idx → Elt F .f32) (Cert.ColScale.col (((cfg0.win 2).blk t).view.emb j)))
  have hj0 : (j 0).val < 2048 := (j 0).isLt
  have hj1 : (j 1).val < 1024 := (j 1).isLt
  -- the block of `x` and the output block sit at the same rows and columns of their arrays
  have hx : ((cfg0.win 0).blk t).view.emb j = ((cfg0.win 2).blk t).view.emb j := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * (j 1).val = win0_2.index t (1 : Fin 2) * 1024 + 1 * (j 1).val; omega
  -- the weight row's entry under block column `j 1` is the vector's entry at the output's column
  have hw : ix1 (n := 1024) ((((cfg0.win 1).blk t).view.emb (ix2_1 j)) 1) = Cert.ColScale.col (((cfg0.win 2).blk t).view.emb j) := by
    funext a
    match a with
    | ⟨0, _⟩ =>
      apply Fin.ext
      show win0_1.index t (1 : Fin 2) * 1024 + 1 * (j 1).val = win0_2.index t (1 : Fin 2) * 1024 + 1 * (j 1).val
      omega
  rw [hx, weight_row, hw]

/-- An index of the output array is in point `t`'s block iff each coordinate is in the block's range on its axis. -/
theorem mem_blk (t : Fin cfg0.N) (i : S32768x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v1).slice (win0_2.rect t)).set ↔ _
  rw [View.set_slice_whole, Rect.mem_set_unit]
  exact Iff.rfl

/-- THE COVER: row `r` lies in the block of point `r / 2048`, and every block is the full width. -/
theorem covered (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  have hN : (i 0).val / 2048 < cfg0.N := by rw [show cfg0.N = 16 from N_0]; omega
  obtain ⟨_, _, _, _, e4, e5⟩ := idx_facts ⟨(i 0).val / 2048, hN⟩
  have e4' : win0_2.index ⟨(i 0).val / 2048, hN⟩ (0 : Fin 2) = (i 0).val / 2048 := e4
  refine ⟨⟨(i 0).val / 2048, hN⟩, flush0_2 _, ?_⟩
  rw [mem_blk]
  intro a
  match a with
  | ⟨0, _⟩ =>
    show win0_2.index ⟨(i 0).val / 2048, hN⟩ (0 : Fin 2) * 2048 ≤ (i 0).val
      ∧ (i 0).val < win0_2.index ⟨(i 0).val / 2048, hN⟩ (0 : Fin 2) * 2048 + 2048
    omega
  | ⟨1, _⟩ =>
    show win0_2.index ⟨(i 0).val / 2048, hN⟩ (1 : Fin 2) * 1024 ≤ (i 1).val
      ∧ (i 1).val < win0_2.index ⟨(i 0).val / 2048, hN⟩ (1 : Fin 2) * 1024 + 1024
    omega

/-- THE OUTPUT ARRAY after the run is the column-scaled matrix of the two arguments as launched. -/
theorem final (c : Dev nD) :
    (dats m 0 c).arrAt 2 cfg0.N
      = Cert.ColScale.scaled (m ((c : Thread nD τ).loc main_arg0)) (m ((c : Thread nD τ).loc main_arg1)) :=
  ((dats m 0 c).arrAt_eq_of_cover 2 _ (fun t _ => flushed_scaled m c t) covered).trans (by rw [V_main_arg0])

/-- The kernel's run, read: every weakly fair execution ends with the result array at the column-scaled matrix and
    the arguments unchanged. -/
theorem run : θ_run defs (onTc (τ := τ) (main (F := F))) ⟨m, fun _ => 0, ρ⟩ fun r => ∀ c : Dev nD,
      r.2.mem ((c : Thread nD τ).loc main_v1)
        = Cert.ColScale.scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.BlockValue

end
-- ==== Proof.RefScaled.lean ====
/-
  The reference is the specification. `x * weight` broadcasts the weight vector twice before it multiplies:
  first to one row, `w1[0, k] = w[k]`, then down every row, `w2[r, k] = w1[0, k]`. Read at an entry (r, k) the
  product is `x[r, k] · w2[r, k] = x[r, k] · w[k]`: the two broadcasts only carry the column `k` to the vector.
-/
import proofs.«400643_j7765300871196_3_alg».proof.Proof.Gen.ReferenceIdeal.Read
import proofs.«400643_j7765300871196_3_alg».proof.Proof.ColScale

noncomputable section

namespace Cert.ReferenceIdeal.RefValue

open Cert.ReferenceIdeal Cert.ReferenceIdeal.Read Idealize.ShloMosaic Idealize.ShloMosaic.ValueIdx

variable {F : FTy → Type} [FloatOps F]

/-- Through both broadcasts a matrix index reaches the weight vector at its own column. -/
theorem col_of_broadcasts (i : S32768x1024.Idx) : idx_main_v0 (idx_main_v1 i) = Cert.ColScale.col i :=
  funext fun a => match a with | ⟨0, _⟩ => rfl

/-- The reference's product, stage by stage, is the column-scaled matrix. -/
theorem ref_scaled (x : (⟨S32768x1024, .f32⟩ : BufTy).Contents (Elt F)) (w : (⟨S1024, .f32⟩ : BufTy).Contents (Elt F)) :
    val_main_v2 (F := F) x w = Cert.ColScale.scaled x w := by
  funext i
  rw [val_main_v2_apply, val_main_v1_apply, val_main_v0_apply, col_of_broadcasts]
  rfl

end Cert.ReferenceIdeal.RefValue

end
-- ==== Proof.lean ====
/-
  The layer multiplies a matrix `x` (32768 × 1024) by the diagonal matrix of a weight vector `w` (1024): every
  column `k` of `x` is scaled by `w[k]`,

      out[r, k] = x[r, k] · w[k].

  The kernel does it 2048 rows at a time, multiplying each block of rows by the weight row repeated down the block;
  the reference broadcasts the weight vector down all the rows and multiplies once. On the extended reals both are
  the same single product per entry, the same two factors in the same order (Proof/ColScale.lean states the
  function, Proof/KernelScaled.lean and Proof/RefScaled.lean that each program computes it), so the two results are
  equal entry by entry with no law of arithmetic in between, and the inputs' finiteness is never used.
  The kernel's idealization rewrote no operation, so there is nothing to preserve beyond the text itself.
-/
import proofs.«400643_j7765300871196_3_alg».proof.Defs
import proofs.«400643_j7765300871196_3_alg».proof.Proof.Gen.Kernel
import proofs.«400643_j7765300871196_3_alg».proof.Proof.Gen.Kernel.Skeleton
import proofs.«400643_j7765300871196_3_alg».proof.Proof.Gen.Kernel.Launch
import proofs.«400643_j7765300871196_3_alg».proof.Proof.Gen.Kernel.Points
import proofs.«400643_j7765300871196_3_alg».proof.Proof.Gen.Kernel.Frame
import proofs.«400643_j7765300871196_3_alg».proof.Proof.Gen.KernelIdeal
import proofs.«400643_j7765300871196_3_alg».proof.Proof.Gen.KernelIdeal.Skeleton
import proofs.«400643_j7765300871196_3_alg».proof.Proof.Gen.KernelIdeal.Launch
import proofs.«400643_j7765300871196_3_alg».proof.Proof.Gen.KernelIdeal.Points
import proofs.«400643_j7765300871196_3_alg».proof.Proof.Gen.KernelIdeal.Frame
import proofs.«400643_j7765300871196_3_alg».proof.Proof.Gen.ReferenceIdeal
import proofs.«400643_j7765300871196_3_alg».proof.Proof.Gen.Pre_finite_inputs
import proofs.«400643_j7765300871196_3_alg».proof.Proof.Gen.KernelIdeal.Value
import proofs.«400643_j7765300871196_3_alg».proof.Proof.Gen.ReferenceIdeal.Run
import proofs.«400643_j7765300871196_3_alg».proof.Proof.Gen.ReferenceIdeal.Read
import proofs.«400643_j7765300871196_3_alg».proof.Proof.ColScale
import proofs.«400643_j7765300871196_3_alg».proof.Proof.KernelScaled
import proofs.«400643_j7765300871196_3_alg».proof.Proof.RefScaled
import Idealize.ShloMosaic.Adequacy
import Idealize.ShloMosaic.Init

noncomputable section

namespace Cert.Proof

open Idealize.ShloMosaic Idealize.SL.Sem

/-- The kernel as printed runs to the end without a fault and leaves `x` and `w` as they were. -/
theorem frame_kernel [Cert.Kernel.Facts] [Cert.Pre_finite_inputs.Facts] : Cert.frame_Kernel :=
  fun m ρ _ => Cert.Kernel.Gen.frame m ρ

/-- So does its reading over the extended reals. -/
theorem frame_kernel_ideal [Cert.KernelIdeal.Facts] [Cert.Pre_finite_inputs.Facts] : Cert.frame_KernelIdeal :=
  fun m ρ _ => Cert.KernelIdeal.Gen.frame m ρ

/-- The reference is three host operations in a row; its run ends, and neither argument is written. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on `x` and `w`, both programs end with the column-scaled matrix `x[r, k] · w[k]`. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.BlockValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_scaled, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
